-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S800000 : Shape := ⟨1, ![800000]⟩
abbrev S64x160 : Shape := ⟨2, ![64, 160]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S64x160 : S_.BroadcastsInDim S64x160 (![] : Fin 0 → Fin S64x160.rank)
  reducesTo_S64x160_S_d0_1 : S64x160.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : FVec F S800000x32 .f32) (main_arg2 : IVec S800000 32) (main_arg3 : IVec S800000 32) (main_arg4 : FVec F S64x160 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S64x160 .f32 := Host.absf main_arg4
  let main_cst_2 : FVec F S_ .f32 := constant S_ .f32 0x7F800000#32
  let main_v10 : FVec F S64x160 .f32 := broadcastInDim S64x160 ![] bcast_S_S64x160 main_cst_2
  let main_v11 : IVec S64x160 1 := cmpf .olt main_v9 main_v10
  let main_c_3 : IVec S_ 1 := constantI S_ 1 1#1
  let main_v12 : IVec S_ 1 := (fun x v => Host.reduce IntOp.andi x v reducesTo_S64x160_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S800000x32 : Shape := ⟨2, ![800000, 32]⟩
abbrev S800000 : Shape := ⟨1, ![800000]⟩
abbrev S64x160 : Shape := ⟨2, ![64, 160]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S64x64 : Shape := ⟨2, ![64, 64]⟩
abbrev S64x32 : Shape := ⟨2, ![64, 32]⟩
abbrev S32x64 : Shape := ⟨2, ![32, 64]⟩
abbrev S8000x64 : Shape := ⟨2, ![8000, 64]⟩
abbrev S8000x32 : Shape := ⟨2, ![8000, 32]⟩
abbrev S1x64 : Shape := ⟨2, ![1, 64]⟩
abbrev S5000x64 : Shape := ⟨2, ![5000, 64]⟩

abbrev nBuf : Space → Nat
  | .hbm => 28
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S800000, .i32⟩
  | .hbm, ⟨3, _⟩ => ⟨S800000, .i32⟩
  | .hbm, ⟨4, _⟩ => ⟨S64x160, .f32⟩
  | .hbm, ⟨5, _⟩ => ⟨S64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S64x64, .f32⟩
  | .hbm, ⟨16, _⟩ => ⟨S64x64, .f32⟩
  | .hbm, ⟨17, _⟩ => ⟨S64x32, .f32⟩
  | .hbm, ⟨18, _⟩ => ⟨S64x64, .f32⟩
  | .hbm, ⟨19, _⟩ => ⟨S64x64, .f32⟩
  | .hbm, ⟨20, _⟩ => ⟨S32x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S1x64, .f32⟩
  | .hbm, ⟨27, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x32, .f32⟩
  | .local _ .vmem, ⟨3, _⟩ => ⟨S8000x32, .f32⟩
  | .local _ .vmem, ⟨4, _⟩ => ⟨S64x64, .f32⟩
  | .local _ .vmem, ⟨5, _⟩ => ⟨S32x64, .f32⟩
  | .local _ .vmem, ⟨6, _⟩ => ⟨S8000x64, .f32⟩
  | .local _ .vmem, ⟨7, _⟩ => ⟨S8000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S64x160_S64x64_0_0 : S64x160.Slices ![0, 0] S64x64
  slices_S64x160_S64x64_0_64 : S64x160.Slices ![0, 64] S64x64
  slices_S64x160_S64x32_0_128 : S64x160.Slices ![0, 128] S64x32
  transposes_S64x64_S64x64_1_0 : S64x64.Transposes [1, 0] S64x64
  transposes_S64x32_S32x64_1_0 : S64x32.Transposes [1, 0] S32x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S8000x32_S8000x32_0_0 : ∀ a, (![0, 0] : Fin 2 → Nat) a + S8000x32.size a ≤ S8000x32.size a
  h_S8000x32 : 0 < S8000x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  dot_S8000x32_S32x64_S8000x64_1_0_0_1_n_n_wf : DotDims.WF S8000x32 S32x64 S8000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S800000x32.size a
  hwx0_1 : ∀ i : grid0.Coords, EltTy.bits .f32 = 32 ∨ (Rect.block (s := S800000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S800000x64.size a
  hwx0_4 : ∀ i : grid0.Coords, EltTy.bits .f32 = 32 ∨ (Rect.block (s := S800000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S800000 : Shape := ⟨1, ![800000]⟩
abbrev S64x160 : Shape := ⟨2, ![64, 160]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S50000x96 : Shape := ⟨2, ![50000, 96]⟩
abbrev S50000x160 : Shape := ⟨2, ![50000, 160]⟩
abbrev S160x64 : Shape := ⟨2, ![160, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S800000, .i32⟩
  | .hbm, ⟨3, _⟩ => ⟨S800000, .i32⟩
  | .hbm, ⟨4, _⟩ => ⟨S64x160, .f32⟩
  | .hbm, ⟨5, _⟩ => ⟨S64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x96, .f32⟩
  | .hbm, ⟨16, _⟩ => ⟨S_, .f32⟩
  | .hbm, ⟨17, _⟩ => ⟨S50000x96, .f32⟩
  | .hbm, ⟨18, _⟩ => ⟨S800000x1, .i32⟩
  | .hbm, ⟨19, _⟩ => ⟨S50000x96, .f32⟩
  | .hbm, ⟨20, _⟩ => ⟨S50000x160, .f32⟩
  | .hbm, ⟨21, _⟩ => ⟨S160x64, .f32⟩
  | .hbm, ⟨22, _⟩ => ⟨S50000x64, .f32⟩
  | .hbm, ⟨23, _⟩ => ⟨S1x64, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S_S50000x96 : S_.BroadcastsInDim S50000x96 (![] : Fin 0 → Fin S50000x96.rank)
  concatenates_S50000x64_S50000x96_S50000x160_d1 : Shape.Concatenates [S50000x64, S50000x96] S50000x160 1
  transposes_S64x160_S160x64_1_0 : S64x160.Transposes [1, 0] S160x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  scatter_S50000x96_S800000x1_S800000x96_1_0_0_1_wf : ScatterDims.WF S50000x96 S800000x1 S800000x96 [1] [0] [0] 1
  dot_S50000x160_S160x64_S50000x64_1_0_0_1_n_n_wf : DotDims.WF S50000x160 S160x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x160_S160x64_S50000x64_1_0_0_1_n_n : DotDims S50000x160 S160x64 S50000x64 where
  lhsContracting := [1]
  rhsContracting := [0]
  lhsNonContracting := [0]
  rhsNonContracting := [1]
  lhsBatch := []
  rhsBatch := []
  wf := dot_S50000x160_S160x64_S50000x64_1_0_0_1_n_n_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.EdgeValue.lean ====
/-
  The first kernel region: the per-edge projected message.

  Block t of the output holds rows 8000·t … 8000·t + 7999 of the array whose row e is
      pm(e, o) = Σ_{k<64} hs(e, k) · wn(k, o) + Σ_{k<32} ef(e, k) · we(k, o),
  hs the gathered source rows, ef the edge features, wn and we the two transposed slices of the weight.  The
  hundred blocks tile the 800000 rows, so after the region the output array is pm at every index.
-/
import proofs.«162274_j82549271429644_1_alg».proof.Proof.Gen.KernelIdeal.Frame
import proofs.«162274_j82549271429644_1_alg».proof.Proof.LibOuterDot
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.EdgeValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The projected message of edge e at output feature o. -/
def pm (hs : S800000x64.Idx → EReal) (ef : S800000x32.Idx → EReal) (wn : S64x64.Idx → EReal) (we : S32x64.Idx → EReal)
    (e : Fin 800000) (o : Fin 64) : EReal :=
  (∑ k : Fin 64, hs (ix2 e k) * wn (ix2 k o)) + ∑ k : Fin 32, ef (ix2 e k) * we (ix2 k o)

/-- The same as an array over the edges. -/
def pmArr (hs : S800000x64.Idx → EReal) (ef : S800000x32.Idx → EReal) (wn : S64x64.Idx → EReal) (we : S32x64.Idx → EReal) :
    S800000x64.Idx → EReal :=
  fun i => pm hs ef wn we ⟨(i 0).val, (i 0).isLt⟩ ⟨(i 1).val, (i 1).isLt⟩

/-- The body's stored value at row p, column q of a block: the two products summed. -/
theorem pay_apply (x0 : Vec Ideal S8000x64 .f32) (x1 : Vec Ideal S8000x32 .f32) (x2 : Vec Ideal S64x64 .f32)
    (x3 : Vec Ideal S32x64 .f32) (p : Fin 8000) (q : Fin 64) :
    k0_pay1 (F := Ideal) x0 x1 x2 x3 (ix2 p q)
      = (∑ k : Fin 64, x0 (ix2 p k) * x2 (ix2 k q)) + ∑ k : Fin 32, x1 (ix2 p k) * x3 (ix2 k q) := by
  unfold k0_pay1
  rw [addf_apply]
  congr 1
  · refine (Cert.LibOuterDot.matmul_zero_ix2 dot_S8000x64_S64x64_S8000x64_1_0_0_1_n_n rfl rfl rfl rfl rfl rfl rfl rfl
      none _ _ p q).trans ?_
    simp only [truncf_apply, shapeCast_self]
  · refine (Cert.LibOuterDot.matmul_zero_ix2 dot_S8000x32_S32x64_S8000x64_1_0_0_1_n_n rfl rfl rfl rfl rfl rfl rfl rfl
      none _ _ p q).trans ?_
    simp only [truncf_apply, shapeCast_self]

section
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the edge windows and the output move one block of rows per point, the two weight
    windows stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of block t of the gathered source rows is row 8000·t + p of the array. -/
theorem blk0_read (c : Dev nD) (t : Fin cfg0.N) (p : Fin 8000) (k : Fin 64) (h : t.val * 8000 + p.val < 800000) :
    iblk0 V c 0 t (ix2 p k) = V c main_v6 (ix2 ⟨t.val * 8000 + p.val, h⟩ k) := by
  obtain ⟨e0, e1, -⟩ := idx_facts t
  show V c main_v6 (((cfg0.win 0).blk t).view.emb (ix2 p k)) = _
  refine congrArg _ (funext fun a => Fin.ext ?_)
  match a with
  | ⟨0, _⟩ => show win0_0.index t (0 : Fin 2) * 8000 + 1 * p.val = t.val * 8000 + p.val; omega
  | ⟨1, _⟩ => show win0_0.index t (1 : Fin 2) * 64 + 1 * k.val = k.val; omega

/-- Row p of block t of the edge features is row 8000·t + p of the array. -/
theorem blk1_read (c : Dev nD) (t : Fin cfg0.N) (p : Fin 8000) (k : Fin 32) (h : t.val * 8000 + p.val < 800000) :
    iblk0 V c 1 t (ix2 p k) = V c main_arg1 (ix2 ⟨t.val * 8000 + p.val, h⟩ k) := by
  obtain ⟨-, -, e0, e1, -⟩ := idx_facts t
  show V c main_arg1 (((cfg0.win 1).blk t).view.emb (ix2 p k)) = _
  refine congrArg _ (funext fun a => Fin.ext ?_)
  match a with
  | ⟨0, _⟩ => show win0_1.index t (0 : Fin 2) * 8000 + 1 * p.val = t.val * 8000 + p.val; omega
  | ⟨1, _⟩ => show win0_1.index t (1 : Fin 2) * 32 + 1 * k.val = k.val; omega

/-- The one block of the first weight slice is the whole slice. -/
theorem blk2_read (c : Dev nD) (t : Fin cfg0.N) (k : Fin 64) (q : Fin 64) :
    iblk0 V c 2 t (ix2 k q) = V c main_v11 (ix2 k q) := by
  obtain ⟨-, -, -, -, e0, e1, -⟩ := idx_facts t
  show V c main_v11 (((cfg0.win 2).blk t).view.emb (ix2 k q)) = _
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- The one block of the second weight slice is the whole slice. -/
theorem blk3_read (c : Dev nD) (t : Fin cfg0.N) (k : Fin 32) (q : Fin 64) :
    iblk0 V c 3 t (ix2 k q) = V c main_v12 (ix2 k q) := by
  obtain ⟨-, -, -, -, -, -, e0, e1, -⟩ := idx_facts t
  show V c main_v12 (((cfg0.win 3).blk t).view.emb (ix2 k q)) = _
  refine congrArg _ (funext fun a => Fin.ext ?_)
  match a with
  | ⟨0, _⟩ => show win0_3.index t (0 : Fin 2) * 32 + 1 * k.val = k.val; omega
  | ⟨1, _⟩ => show win0_3.index t (1 : Fin 2) * 64 + 1 * q.val = q.val; omega

/-- Where row p, column q of output block t sits in the array. -/
theorem out_emb (t : Fin cfg0.N) (p : Fin 8000) (q : Fin 64) (h : t.val * 8000 + p.val < 800000) :
    ((cfg0.win 4).blk t).view.emb (ix2 p q) = ix2 ⟨t.val * 8000 + p.val, h⟩ q := by
  obtain ⟨-, -, -, -, -, -, -, -, e0, e1⟩ := idx_facts t
  refine funext fun a => Fin.ext ?_
  match a with
  | ⟨0, _⟩ => show win0_4.index t (0 : Fin 2) * 8000 + 1 * p.val = t.val * 8000 + p.val; omega
  | ⟨1, _⟩ => show win0_4.index t (1 : Fin 2) * 64 + 1 * q.val = q.val; omega

/-- What point t writes back is block t of the projected messages of the arrays as the region finds them. -/
theorem flushed_eq (c : Dev nD) (t : Fin cfg0.N) :
    (dat0 V c).flushed 4 t
      = ((cfg0.win 4).blk t).view.read (Elt Ideal) (pmArr (V c main_v6) (V c main_arg1) (V c main_v11) (V c main_v12)) := by
  show (cfg0.win 4).cut (grid0.coords t) ((dat0 V c).after 4 t) = _
  rw [after0_4]
  unfold out0_4
  rw [View.canon_unit_zero hz]
  simp only [View.ld_unit_zero (S := S8000x64) hz, View.ld_unit_zero (S := S8000x32) hz, View.ld_unit_zero (S := S64x64) hz,
    View.ld_unit_zero (S := S32x64) hz]
  funext j
  obtain ⟨p, q, rfl⟩ : ∃ (p : Fin 8000) (q : Fin 64), j = ix2 p q := ⟨j 0, j 1, eq_ix2 j⟩
  have ht : t.val < 100 := t.isLt
  have h : t.val * 8000 + p.val < 800000 := by have := p.isLt; omega
  show k0_pay1 (F := Ideal) (iblk0 V c 0 t) (iblk0 V c 1 t) (iblk0 V c 2 t) (iblk0 V c 3 t) (ix2 p q)
    = pmArr (V c main_v6) (V c main_arg1) (V c main_v11) (V c main_v12) (((cfg0.win 4).blk t).view.emb (ix2 p q))
  rw [out_emb t p q h]
  refine (pay_apply (iblk0 V c 0 t) (iblk0 V c 1 t) (iblk0 V c 2 t) (iblk0 V c 3 t) p q).trans ?_
  show _ = pm (V c main_v6) (V c main_arg1) (V c main_v11) (V c main_v12) ⟨t.val * 8000 + p.val, h⟩ q
  unfold pm
  congr 1
  · exact Finset.sum_congr rfl fun k _ => by rw [blk0_read V c t p k h, blk2_read V c t k q]
  · exact Finset.sum_congr rfl fun k _ => by rw [blk1_read V c t p k h, blk3_read V c t k q]

/-- An index of the array is in point t's block iff each coordinate is in the block's range on its axis. -/
theorem mem_blk (t : Fin cfg0.N) (i : S800000x64.Idx) :
    i ∈ ((cfg0.win 4).blk t).view.set ↔ ∀ a : Fin 2, win0_4.index t a * S8000x64.size a ≤ (i a).val
      ∧ (i a).val < win0_4.index t a * S8000x64.size a + S8000x64.size a := by
  show i ∈ ((View.whole main_v13).slice (win0_4.rect t)).set ↔ _
  rw [View.set_slice_whole, Rect.mem_set_unit]
  exact Iff.rfl

/-- After the region the output array is the projected message at every index: row r lies in block r / 8000. -/
theorem final (c : Dev nD) :
    (dat0 V c).arrAt 4 cfg0.N = pmArr (V c main_v6) (V c main_arg1) (V c main_v11) (V c main_v12) :=
  (dat0 V c).arrAt_eq_of_cover 4 _ (fun t _ => flushed_eq V c t) (fun i => by
    have hi0 : (i 0).val < 800000 := (i 0).isLt
    have hi1 : (i 1).val < 64 := (i 1).isLt
    have hq : (i 0).val / 8000 < 100 := by omega
    refine ⟨⟨(i 0).val / 8000, hq⟩, flush0_4 _, ?_⟩
    rw [mem_blk]
    obtain ⟨-, -, -, -, -, -, -, -, e0, e1⟩ := idx_facts ⟨(i 0).val / 8000, hq⟩
    intro a
    match a with
    | ⟨0, _⟩ =>
      show win0_4.index ⟨(i 0).val / 8000, hq⟩ (0 : Fin 2) * 8000 ≤ (i 0).val
        ∧ (i 0).val < win0_4.index ⟨(i 0).val / 8000, hq⟩ (0 : Fin 2) * 8000 + 8000
      rw [e0]; show (i 0).val / 8000 * 8000 ≤ (i 0).val ∧ (i 0).val < (i 0).val / 8000 * 8000 + 8000; omega
    | ⟨1, _⟩ =>
      show win0_4.index ⟨(i 0).val / 8000, hq⟩ (1 : Fin 2) * 64 ≤ (i 1).val
        ∧ (i 1).val < win0_4.index ⟨(i 0).val / 8000, hq⟩ (1 : Fin 2) * 64 + 64
      rw [e1]; omega)

end

end Cert.KernelIdeal.EdgeValue

end
-- ==== Proof.HostRead.lean ====
/-
  What the host operations around the two kernel regions leave in the buffers the regions read.

  Before the first region: the gathered source rows (the node features at the source words, a negative word moved up
  by the number of nodes first), and the three slices of the weight, each transposed.  Between the regions: the
  projected messages summed into their destination rows (a scatter-add into zeros at the destination words), and the
  bias as one row.  A buffer no operation of a stretch writes holds what it held before the stretch.
-/
import proofs.«162274_j82549271429644_1_alg».proof.Proof.Gen.KernelIdeal.Frame
import proofs.«162274_j82549271429644_1_alg».proof.Proof.EdgeValue
import Idealize.ShloMosaic.Lib.StableHlo.Run
import Idealize.ShloMosaic.Lib.ValueIdx
import Idealize.ShloMosaic.Lib.Pipeline.Value

set_option maxRecDepth 16384

noncomputable section

namespace Cert.KernelIdeal.HostRead

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The source words with a negative one moved up by the number of nodes, as a column. -/
abbrev srcCol (c : Dev nD) : IVec S800000x1 32 :=
  broadcastInDim S800000x1 ![0] bcast_S800000_S800000x1_0
    (select (cmpi .slt (m ((c : Thread nD τ).loc main_arg2)) (broadcastInDim S800000 ![] bcast_S_S800000 (constantI S_ 32 0#32)))
      (addi (m ((c : Thread nD τ).loc main_arg2)) (broadcastInDim S800000 ![] bcast_S_S800000 (constantI S_ 32 50000#32)))
      (m ((c : Thread nD τ).loc main_arg2)))

/-- The gathered source rows. -/
abbrev hsrc (c : Dev nD) : S800000x64.Idx → EReal :=
  Host.gather gather_S50000x64_S800000x1_S800000x64_1_0_n_n_0_1_164 (m ((c : Thread nD τ).loc main_arg0)) (srcCol m c)

/-- The destination words as a column. -/
abbrev dstCol (c : Dev nD) : IVec S800000x1 32 :=
  broadcastInDim S800000x1 ![0] bcast_S800000_S800000x1_0 (m ((c : Thread nD τ).loc main_arg3))

/-! ## Before the first region -/

theorem V1_v6 (c : Dev nD) : (V1 m ρ c main_v6 : S800000x64.Idx → EReal) = hsrc m c := by
  show StableHlo.after hostOps0 (W0 m ρ c) (Proc.devRef .tc main_v6) = _
  after_results <;> rfl

theorem V1_arg1 (c : Dev nD) : (V1 m ρ c main_arg1 : S800000x32.Idx → EReal) = m ((c : Thread nD τ).loc main_arg1) := by
  show StableHlo.after hostOps0 (W0 m ρ c) (Proc.devRef .tc main_arg1) = _
  after_results <;> rfl

theorem V1_arg3 (c : Dev nD) : (V1 m ρ c main_arg3 : S800000.Idx → BitVec 32) = m ((c : Thread nD τ).loc main_arg3) := by
  show StableHlo.after hostOps0 (W0 m ρ c) (Proc.devRef .tc main_arg3) = _
  after_results <;> rfl

theorem V1_arg0 (c : Dev nD) : (V1 m ρ c main_arg0 : S50000x64.Idx → EReal) = m ((c : Thread nD τ).loc main_arg0) := by
  show StableHlo.after hostOps0 (W0 m ρ c) (Proc.devRef .tc main_arg0) = _
  after_results <;> rfl

theorem V1_arg5 (c : Dev nD) : (V1 m ρ c main_arg5 : S64.Idx → EReal) = m ((c : Thread nD τ).loc main_arg5) := by
  show StableHlo.after hostOps0 (W0 m ρ c) (Proc.devRef .tc main_arg5) = _
  after_results <;> rfl

theorem V1_v10 (c : Dev nD) : (V1 m ρ c main_v10 : S64x64.Idx → EReal)
    = transpose S64x64 [1, 0] (extractStridedSlice S64x64 ![0, 0] (m ((c : Thread nD τ).loc main_arg4)) slices_S64x160_S64x64_0_0) transposes_S64x64_S64x64_1_0 := by
  show StableHlo.after hostOps0 (W0 m ρ c) (Proc.devRef .tc main_v10) = _
  after_results <;> rfl

theorem V1_v11 (c : Dev nD) : (V1 m ρ c main_v11 : S64x64.Idx → EReal)
    = transpose S64x64 [1, 0] (extractStridedSlice S64x64 ![0, 64] (m ((c : Thread nD τ).loc main_arg4)) slices_S64x160_S64x64_0_64) transposes_S64x64_S64x64_1_0 := by
  show StableHlo.after hostOps0 (W0 m ρ c) (Proc.devRef .tc main_v11) = _
  after_results <;> rfl

theorem V1_v12 (c : Dev nD) : (V1 m ρ c main_v12 : S32x64.Idx → EReal)
    = transpose S32x64 [1, 0] (extractStridedSlice S64x32 ![0, 128] (m ((c : Thread nD τ).loc main_arg4)) slices_S64x160_S64x32_0_128) transposes_S64x32_S32x64_1_0 := by
  show StableHlo.after hostOps0 (W0 m ρ c) (Proc.devRef .tc main_v12) = _
  after_results <;> rfl

/-! ## After the first region -/

/-- The first region's output array: the projected messages. -/
theorem W2_v13 (c : Dev nD) : (W2 m ρ c (Proc.devRef .tc main_v13) : S800000x64.Idx → EReal)
    = Cert.KernelIdeal.EdgeValue.pmArr (V1 m ρ c main_v6) (V1 m ρ c main_arg1) (V1 m ρ c main_v11) (V1 m ρ c main_v12) :=
  (W2_arr m ρ c 4).trans (Cert.KernelIdeal.EdgeValue.final (V1 m ρ) c)

theorem W2_arg3 (c : Dev nD) : (W2 m ρ c (Proc.devRef .tc main_arg3) : S800000.Idx → BitVec 32) = m ((c : Thread nD τ).loc main_arg3) :=
  (W2_of_ne m ρ c main_arg3 (by decide)).trans (V1_arg3 m ρ c)

theorem W2_arg0 (c : Dev nD) : (W2 m ρ c (Proc.devRef .tc main_arg0) : S50000x64.Idx → EReal) = m ((c : Thread nD τ).loc main_arg0) :=
  (W2_of_ne m ρ c main_arg0 (by decide)).trans (V1_arg0 m ρ c)

theorem W2_arg5 (c : Dev nD) : (W2 m ρ c (Proc.devRef .tc main_arg5) : S64.Idx → EReal) = m ((c : Thread nD τ).loc main_arg5) :=
  (W2_of_ne m ρ c main_arg5 (by decide)).trans (V1_arg5 m ρ c)

theorem W2_v10 (c : Dev nD) : (W2 m ρ c (Proc.devRef .tc main_v10) : S64x64.Idx → EReal)
    = transpose S64x64 [1, 0] (extractStridedSlice S64x64 ![0, 0] (m ((c : Thread nD τ).loc main_arg4)) slices_S64x160_S64x64_0_0) transposes_S64x64_S64x64_1_0 :=
  (W2_of_ne m ρ c main_v10 (by decide)).trans (V1_v10 m ρ c)

/-! ## Before the second region -/

theorem V3_v16 (c : Dev nD) : (V3 m ρ c main_v16 : S50000x64.Idx → EReal)
    = Host.scatterAdd (F := Ideal) (φ := .f32) scatter_S50000x64_S800000x1_S800000x64_1_0_0_1
        (broadcastInDim S50000x64 ![] bcast_S_S50000x64 (constant (F := Ideal) S_ .f32 0x00000000#32))
        (broadcastInDim S800000x1 ![0] bcast_S800000_S800000x1_0 (W2 m ρ c (Proc.devRef .tc main_arg3) : S800000.Idx → BitVec 32))
        (W2 m ρ c (Proc.devRef .tc main_v13) : S800000x64.Idx → EReal) := by
  show StableHlo.after hostOps1 (W2 m ρ c) (Proc.devRef .tc main_v16) = _
  after_results <;> rfl

theorem V3_arg0 (c : Dev nD) : (V3 m ρ c main_arg0 : S50000x64.Idx → EReal) = m ((c : Thread nD τ).loc main_arg0) := by
  refine Eq.trans ?_ (W2_arg0 m ρ c)
  show StableHlo.after hostOps1 (W2 m ρ c) (Proc.devRef .tc main_arg0) = _
  after_results <;> rfl

theorem V3_v10 (c : Dev nD) : (V3 m ρ c main_v10 : S64x64.Idx → EReal)
    = transpose S64x64 [1, 0] (extractStridedSlice S64x64 ![0, 0] (m ((c : Thread nD τ).loc main_arg4)) slices_S64x160_S64x64_0_0) transposes_S64x64_S64x64_1_0 := by
  refine Eq.trans ?_ (W2_v10 m ρ c)
  show StableHlo.after hostOps1 (W2 m ρ c) (Proc.devRef .tc main_v10) = _
  after_results <;> rfl

theorem V3_v17 (c : Dev nD) : (V3 m ρ c main_v17 : S1x64.Idx → EReal)
    = shapeCast S1x64 (W2 m ρ c (Proc.devRef .tc main_arg5) : S64.Idx → EReal) shapeCasts_S64_S1x64 := by
  show StableHlo.after hostOps1 (W2 m ρ c) (Proc.devRef .tc main_v17) = _
  after_results <;> rfl

end Cert.KernelIdeal.HostRead

end
-- ==== Proof.NodeValue.lean ====
/-
  The second kernel region: the node update.

  Block t of the output holds rows 5000·t … 5000·t + 4999 of the array whose entry (v, o) is
      max( Σ_{k<64} nf(v, k) · wv(k, o) + agg(v, o) + b2(0, o), 0 ),
  nf the node features, agg the aggregated projected messages, wv the transposed first slice of the weight, b2 the
  bias as one row.  The ten blocks tile the 50000 rows.
-/
import proofs.«162274_j82549271429644_1_alg».proof.Proof.Gen.KernelIdeal.Frame
import proofs.«162274_j82549271429644_1_alg».proof.Proof.LibOuterDot
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.NodeValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The updated feature o of node v. -/
def nodeOut (nf : S50000x64.Idx → EReal) (agg : S50000x64.Idx → EReal) (wv : S64x64.Idx → EReal) (b2 : S1x64.Idx → EReal)
    (v : Fin 50000) (o : Fin 64) : EReal :=
  max (((∑ k : Fin 64, nf (ix2 v k) * wv (ix2 k o)) + agg (ix2 v o)) + b2 (ix2 (0 : Fin 1) o)) 0

/-- The same as an array over the nodes. -/
def nodeArr (nf : S50000x64.Idx → EReal) (agg : S50000x64.Idx → EReal) (wv : S64x64.Idx → EReal) (b2 : S1x64.Idx → EReal) :
    S50000x64.Idx → EReal :=
  fun i => nodeOut nf agg wv b2 ⟨(i 0).val, (i 0).isLt⟩ ⟨(i 1).val, (i 1).isLt⟩

/-- The body's stored value at row p, column q of a block: the product plus the aggregate plus the bias row, cut
    below at zero. -/
theorem pay_apply (x0 : Vec Ideal S5000x64 .f32) (x2 : Vec Ideal S64x64 .f32) (x6 : Vec Ideal S5000x64 .f32)
    (x9 : Vec Ideal S1x64 .f32) (p : Fin 5000) (q : Fin 64) :
    k1_pay1 (F := Ideal) x0 x2 x6 x9 (ix2 p q)
      = max (((∑ k : Fin 64, x0 (ix2 p k) * x2 (ix2 k q)) + x6 (ix2 p q)) + x9 (ix2 (0 : Fin 1) q)) 0 := by
  unfold k1_pay1
  rw [maximumf_apply, addf_apply, addf_apply]
  congr 1
  · congr 1
    · congr 1
      · refine (Cert.LibOuterDot.matmul_zero_ix2 dot_S5000x64_S64x64_S5000x64_1_0_0_1_n_n rfl rfl rfl rfl rfl rfl rfl rfl
          none _ _ p q).trans ?_
        simp only [truncf_apply, shapeCast_self]
      · rw [shapeCast_self]
    · rw [shapeCast_self]
      exact broadcastTo_apply x9 broadcasts_S1x64_S5000x64 (ix2 p q) (ix2 (0 : Fin 1) q) (fun a => by
        match a with
        | ⟨0, _⟩ => rfl
        | ⟨1, _⟩ => rfl)
  · rw [broadcast_apply]
    exact Ideal.ofBits_zero_f32

section
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node features, the aggregate and the output move one block of rows per point,
    the weight and the bias windows stay at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t of the node features is row 5000·t + p of the array. -/
theorem blk0_read (c : Dev nD) (t : Fin cfg1.N) (p : Fin 5000) (k : Fin 64) (h : t.val * 5000 + p.val < 50000) :
    iblk1 V c 0 t (ix2 p k) = V c main_arg0 (ix2 ⟨t.val * 5000 + p.val, h⟩ k) := by
  obtain ⟨e0, e1, -⟩ := idx_facts t
  show V c main_arg0 (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

/-- Row p of block t of the aggregate is row 5000·t + p of the array. -/
theorem blk1_read (c : Dev nD) (t : Fin cfg1.N) (p : Fin 5000) (q : Fin 64) (h : t.val * 5000 + p.val < 50000) :
    iblk1 V c 1 t (ix2 p q) = V c main_v16 (ix2 ⟨t.val * 5000 + p.val, h⟩ q) := by
  obtain ⟨-, -, e0, e1, -⟩ := idx_facts t
  show V c main_v16 (((cfg1.win 1).blk t).view.emb (ix2 p q)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 64 + 1 * q.val = q.val; omega

/-- The one block of the weight slice is the whole slice. -/
theorem blk2_read (c : Dev nD) (t : Fin cfg1.N) (k : Fin 64) (q : Fin 64) :
    iblk1 V c 2 t (ix2 k q) = V c main_v10 (ix2 k q) := by
  obtain ⟨-, -, -, -, e0, e1, -⟩ := idx_facts t
  show V c main_v10 (((cfg1.win 2).blk t).view.emb (ix2 k q)) = _
  refine congrArg _ (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- The one block of the bias row is the whole row. -/
theorem blk3_read (c : Dev nD) (t : Fin cfg1.N) (r : Fin 1) (q : Fin 64) :
    iblk1 V c 3 t (ix2 r q) = V c main_v17 (ix2 r q) := by
  obtain ⟨-, -, -, -, -, -, e0, e1, -⟩ := idx_facts t
  show V c main_v17 (((cfg1.win 3).blk t).view.emb (ix2 r q)) = _
  refine congrArg _ (funext fun a => Fin.ext ?_)
  match a with
  | ⟨0, _⟩ => show win1_3.index t (0 : Fin 2) * 1 + 1 * r.val = r.val; omega
  | ⟨1, _⟩ => show win1_3.index t (1 : Fin 2) * 64 + 1 * q.val = q.val; omega

/-- Where row p, column q of output block t sits in the array. -/
theorem out_emb (t : Fin cfg1.N) (p : Fin 5000) (q : Fin 64) (h : t.val * 5000 + p.val < 50000) :
    ((cfg1.win 4).blk t).view.emb (ix2 p q) = ix2 ⟨t.val * 5000 + p.val, h⟩ q := by
  obtain ⟨-, -, -, -, -, -, -, -, e0, e1⟩ := idx_facts t
  refine funext fun a => Fin.ext ?_
  match a with
  | ⟨0, _⟩ => show win1_4.index t (0 : Fin 2) * 5000 + 1 * p.val = t.val * 5000 + p.val; omega
  | ⟨1, _⟩ => show win1_4.index t (1 : Fin 2) * 64 + 1 * q.val = q.val; omega

/-- What point t writes back is block t of the node update of the arrays as the region finds them. -/
theorem flushed_eq (c : Dev nD) (t : Fin cfg1.N) :
    (dat1 V c).flushed 4 t
      = ((cfg1.win 4).blk t).view.read (Elt Ideal) (nodeArr (V c main_arg0) (V c main_v16) (V c main_v10) (V c main_v17)) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have ht : t.val < 10 := t.isLt
  have h : t.val * 5000 + p.val < 50000 := by have := p.isLt; omega
  show k1_pay1 (F := Ideal) (iblk1 V c 0 t) (iblk1 V c 2 t) (iblk1 V c 1 t) (iblk1 V c 3 t) (ix2 p q)
    = nodeArr (V c main_arg0) (V c main_v16) (V c main_v10) (V c main_v17) (((cfg1.win 4).blk t).view.emb (ix2 p q))
  rw [out_emb t p q h]
  refine (pay_apply (iblk1 V c 0 t) (iblk1 V c 2 t) (iblk1 V c 1 t) (iblk1 V c 3 t) p q).trans ?_
  show _ = nodeOut (V c main_arg0) (V c main_v16) (V c main_v10) (V c main_v17) ⟨t.val * 5000 + p.val, h⟩ q
  unfold nodeOut
  refine congrArg (fun z : EReal => max z 0)
    (congrArg₂ (· + ·) (congrArg₂ (· + ·) (Finset.sum_congr rfl fun k _ => ?_) ?_) ?_)
  · rw [blk0_read V c t p k h, blk2_read V c t k q]
  · exact blk1_read V c t p q h
  · exact blk3_read V c t 0 q

/-- An index of the array is in point t's block iff each coordinate is in the block's range on its axis. -/
theorem mem_blk (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v18).slice (win1_4.rect t)).set ↔ _
  rw [View.set_slice_whole, Rect.mem_set_unit]
  exact Iff.rfl

/-- After the region the output array is the node update at every index: row r lies in block r / 5000. -/
theorem final (c : Dev nD) :
    (dat1 V c).arrAt 4 cfg1.N = nodeArr (V c main_arg0) (V c main_v16) (V c main_v10) (V c main_v17) := by
  exact (dat1 V c).arrAt_eq_of_cover 4 _ (fun t _ => flushed_eq V c t) (fun i => by
    have hi0 : (i 0).val < 50000 := (i 0).isLt
    have hi1 : (i 1).val < 64 := (i 1).isLt
    have hq : (i 0).val / 5000 < 10 := by omega
    refine ⟨⟨(i 0).val / 5000, hq⟩, flush1_4 _, ?_⟩
    rw [mem_blk]
    obtain ⟨-, -, -, -, -, -, -, -, e0, e1⟩ := idx_facts ⟨(i 0).val / 5000, hq⟩
    intro a
    match a with
    | ⟨0, _⟩ =>
      show win1_4.index ⟨(i 0).val / 5000, hq⟩ (0 : Fin 2) * 5000 ≤ (i 0).val
        ∧ (i 0).val < win1_4.index ⟨(i 0).val / 5000, hq⟩ (0 : Fin 2) * 5000 + 5000
      rw [e0]; show (i 0).val / 5000 * 5000 ≤ (i 0).val ∧ (i 0).val < (i 0).val / 5000 * 5000 + 5000; omega
    | ⟨1, _⟩ =>
      show win1_4.index ⟨(i 0).val / 5000, hq⟩ (1 : Fin 2) * 64 ≤ (i 1).val
        ∧ (i 1).val < win1_4.index ⟨(i 0).val / 5000, hq⟩ (1 : Fin 2) * 64 + 64
      rw [e1]; omega)

end

end Cert.KernelIdeal.NodeValue

end
-- ==== Proof.Spec.lean ====
/-
  The node update of one message-passing layer, written two ways over the extended reals.

  For node v and output feature o, with S(v) the set of edges whose destination word (read signed) is v:

    kernel form     max( Σ_{k<64} nf(v,k)·W(o,k) + ( 0 + Σ_{e∈S(v)} ( Σ_{k<64} hs(e,k)·W(o,64+k) + Σ_{k<32} ef(e,k)·W(o,128+k) ) ) + b(o), 0 )
    reference form  max( Σ_{k<64} nf(v,k)·W(o,k) + ( Σ_{k<64} (0 + Σ_{e∈S(v)} hs(e,k))·W(o,64+k) + Σ_{k<32} (0 + Σ_{e∈S(v)} ef(e,k))·W(o,128+k) ) + b(o), 0 )

  The first projects every message before summing over the edges, the second sums the messages and projects the
  sum.  They agree when every entry is a real number: multiplication then distributes over the finite sums, which
  may be exchanged.  (With infinite entries distributivity fails on the extended reals, so the hypothesis is used.)
-/
import Idealize.ShloMosaic.Lib.ValueIdx
import Idealize.ShloMosaic.PureOps.Ideal.Laws
import Mathlib.Algebra.BigOperators.Fin
import Mathlib.Data.EReal.Basic

noncomputable section

open scoped BigOperators

namespace Cert.Spec

open Idealize.ShloMosaic Idealize.ShloMosaic.ValueIdx

abbrev SNx64 : Shape := ⟨2, ![50000, 64]⟩
abbrev SEx64 : Shape := ⟨2, ![800000, 64]⟩
abbrev SEx32 : Shape := ⟨2, ![800000, 32]⟩
abbrev SEx1 : Shape := ⟨2, ![800000, 1]⟩
abbrev SW : Shape := ⟨2, ![64, 160]⟩
abbrev SB : Shape := ⟨1, ![64]⟩

/-- The edges whose destination word, read as a signed integer, is the node v. -/
def into (dstI : IVec SEx1 32) (v : Fin 50000) : Finset (Fin 800000) :=
  Finset.univ.filter fun e => (dstI (ix2 e (0 : Fin 1))).toInt = (v.val : Int)

/-- Column k of the weight's first 64 columns (the node's own features). -/
def wi0 (k : Fin 64) : Fin 160 := ⟨k.val, by omega⟩
/-- Column 64 + k (the aggregated source features). -/
def wi1 (k : Fin 64) : Fin 160 := ⟨64 + k.val, by omega⟩
/-- Column 128 + k (the aggregated edge features). -/
def wi2 (k : Fin 32) : Fin 160 := ⟨128 + k.val, by omega⟩

/-- Project each message, then sum over the edges into v. -/
def kform (nf : SNx64.Idx → EReal) (hs : SEx64.Idx → EReal) (ef : SEx32.Idx → EReal) (dstI : IVec SEx1 32)
    (W : SW.Idx → EReal) (b : SB.Idx → EReal) (v : Fin 50000) (o : Fin 64) : EReal :=
  max (((∑ k : Fin 64, nf (ix2 v k) * W (ix2 o (wi0 k)))
      + (0 + ∑ e ∈ into dstI v, ((∑ k : Fin 64, hs (ix2 e k) * W (ix2 o (wi1 k))) + ∑ k : Fin 32, ef (ix2 e k) * W (ix2 o (wi2 k)))))
      + b (ix1 o)) 0

/-- Sum the messages over the edges into v, then project the sum. -/
def rform (nf : SNx64.Idx → EReal) (hs : SEx64.Idx → EReal) (ef : SEx32.Idx → EReal) (dstI : IVec SEx1 32)
    (W : SW.Idx → EReal) (b : SB.Idx → EReal) (v : Fin 50000) (o : Fin 64) : EReal :=
  max (((∑ k : Fin 64, nf (ix2 v k) * W (ix2 o (wi0 k)))
      + ((∑ k : Fin 64, (0 + ∑ e ∈ into dstI v, hs (ix2 e k)) * W (ix2 o (wi1 k)))
          + ∑ k : Fin 32, (0 + ∑ e ∈ into dstI v, ef (ix2 e k)) * W (ix2 o (wi2 k))))
      + b (ix1 o)) 0

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing real messages and then projecting equals projecting and then summing. -/
theorem project_sum {E : Type*} (S : Finset E) (a : E → Fin 64 → ℝ) (c : E → Fin 32 → ℝ) (wn : Fin 64 → ℝ) (we : Fin 32 → ℝ) :
    (∑ k : Fin 64, (0 + ∑ e ∈ S, (a e k : EReal)) * (wn k : EReal)) + ∑ k : Fin 32, (0 + ∑ e ∈ S, (c e k : EReal)) * (we k : EReal)
      = 0 + ∑ e ∈ S, ((∑ k : Fin 64, (a e k : EReal) * (wn k : EReal)) + ∑ k : Fin 32, (c e k : EReal) * (we k : EReal)) := by
  simp only [zero_add, ← coe_sum, ← EReal.coe_mul, ← EReal.coe_add]
  congr 1
  rw [Finset.sum_add_distrib]
  congr 1
  · rw [Finset.sum_comm]; exact Finset.sum_congr rfl fun k _ => Finset.sum_mul _ _ _
  · rw [Finset.sum_comm]; exact Finset.sum_congr rfl fun k _ => Finset.sum_mul _ _ _

/-- On real entries the two forms agree. -/
theorem rform_eq_kform (nf : SNx64.Idx → EReal) (hs : SEx64.Idx → EReal) (ef : SEx32.Idx → EReal) (dstI : IVec SEx1 32)
    (W : SW.Idx → EReal) (b : SB.Idx → EReal)
    (hhs : ∀ i, ∃ r : ℝ, hs i = (r : EReal)) (hef : ∀ i, ∃ r : ℝ, ef i = (r : EReal)) (hW : ∀ i, ∃ r : ℝ, W i = (r : EReal))
    (v : Fin 50000) (o : Fin 64) :
    rform nf hs ef dstI W b v o = kform nf hs ef dstI W b v o := by
  choose hsR hhsR using hhs
  choose efR hefR using hef
  choose WR hWR using hW
  unfold rform kform
  simp only [hhsR, hefR, hWR]
  rw [project_sum (into dstI v) (fun e k => hsR (ix2 e k)) (fun e k => efR (ix2 e k)) (fun k => WR (ix2 o (wi1 k))) (fun k => WR (ix2 o (wi2 k)))]

end Cert.Spec

end
-- ==== Proof.LibRowScatter.lean ====
/-
  A scatter-add of ROWS (a segment sum): operand of shape [N, D], scatter indices of shape [E, 1], updates of shape
  [E, D]; the updates' axis 1 is the window axis, the operand's axis 0 is the inserted window axis and the one the
  scatter indices address, and the index vector lies along the scatter indices' axis 1.

  Update row `e` is added to operand row `v` exactly when the index word of row `e`, read signed, is `v`; the
  column is kept. So

    • `resultIdx?_eq_some_iff` (any dimension numbers): an update index lands on an operand index exactly when on
      every operand axis the start plus the window coordinate is that index's coordinate;
    • `resultIdx?_rows_eq_some_iff`: for rows, update element (e, o') lands on operand element (v, o) iff the index
      word of row e equals v and o' = o (axis 0 has start = the index word and window coordinate 0; axis 1 has
      start 0 and window coordinate o');
    • `scatterAdd_rows_apply`: at the ideal values the result at (v, o) is the operand's element plus the sum of
      the updates' elements (e, o) over the rows e whose index word is v (the sum over update indices splits into
      the double sum over rows and columns, and the inner sum keeps the one column o).
-/
import Idealize.ShloMosaic.Lib.ValueIdx
import Idealize.ShloMosaic.Lib.Pipeline.Value
import Idealize.ShloMosaic.PureOps.Ideal.Laws

noncomputable section
open scoped BigOperators
namespace Cert.LibRowScatter
open Idealize.ShloMosaic Idealize.ShloMosaic.ValueIdx

/-- For any scatter dimension numbers: update index `j` lands on operand index `i` exactly when, on every operand
    axis, start plus window coordinate is `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq, funext_iff]
    refine forall_congr' fun a => ?_
    have := h a
    rw [Fin.ext_iff]
    simp only
    omega
  · rename_i h
    constructor
    · intro hn; exact absurd hn (by simp)
    · intro hall
      exfalso; apply h
      intro a
      have := hall a
      have := (i a).isLt
      omega

theorem resultIdx?_rows_eq_some_iff {N E D w : ℕ} (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1) (idx : IVec ⟨2, ![E, 1]⟩ w) (e : Fin E) (o' : Fin D) (v : Fin N) (o : Fin D) :
    d.resultIdx? (ix2 e o') idx = some (ix2 v o) ↔ ((idx (ix2 e (0 : Fin 1))).toInt = (v.val : Int) ∧ o' = o) := by
  obtain ⟨uw, iw, sd, iv, wf⟩ := d
  simp only at huw hiw hsd hiv
  subst huw hiw hsd hiv
  have hsi : ∀ c, ScatterDims.siIdx ⟨[1], [0], [0], 1, wf⟩ (ix2 e o') c = ix2 e (0 : Fin 1) := by
    intro c
    funext b
    match b with
    | ⟨0, _⟩ =>
      unfold ScatterDims.siIdx
      rw [dif_neg (by show ¬ ((0 : ℕ) = 1); decide)]
      rfl
    | ⟨1, _⟩ =>
      unfold ScatterDims.siIdx
      rw [dif_pos rfl]
      apply Fin.ext
      have hc : c.val < 1 := c.isLt
      show c.val = 0
      omega
  have hs0 : ∀ h0 : 0 < 2, ScatterDims.start ⟨[1], [0], [0], 1, wf⟩ (ix2 e o') idx ⟨0, h0⟩ = (idx (ix2 e (0 : Fin 1))).toInt := by
    intro h0
    unfold ScatterDims.start
    rw [dif_pos (by show (0 : Fin 2) ∈ ([0] : List (Fin 2)); decide), hsi]
  have hs1 : ∀ h1 : 1 < 2, ScatterDims.start ⟨[1], [0], [0], 1, wf⟩ (ix2 e o') idx ⟨1, h1⟩ = 0 := by
    intro h1
    unfold ScatterDims.start
    rw [dif_neg (by show (1 : Fin 2) ∉ ([0] : List (Fin 2)); decide)]
  have hw0 : ∀ h0 : 0 < 2, ScatterDims.window ⟨[1], [0], [0], 1, wf⟩ (ix2 e o') ⟨0, h0⟩ = 0 := by
    intro h0
    unfold ScatterDims.window
    rw [dif_neg (by show (0 : Fin 2) ∉ (List.finRange 2).filter (· ∉ ([0] : List (Fin 2))); decide)]
  have hw1 : ∀ h1 : 1 < 2, ScatterDims.window ⟨[1], [0], [0], 1, wf⟩ (ix2 e o') ⟨1, h1⟩ = o'.val := by
    intro h1
    unfold ScatterDims.window
    rw [dif_pos (by show (1 : Fin 2) ∈ (List.finRange 2).filter (· ∉ ([0] : List (Fin 2))); decide)]
    rfl
  rw [resultIdx?_eq_some_iff]
  constructor
  · intro h
    have h0 := h ⟨0, Nat.zero_lt_two⟩
    have h1 := h ⟨1, Nat.one_lt_two⟩
    rw [hs0, hw0] at h0
    rw [hs1, hw1] at h1
    change _ + ((0 : ℕ) : Int) = ((v.val : ℕ) : Int) at h0
    change (0 : Int) + ((o'.val : ℕ) : Int) = ((o.val : ℕ) : Int) at h1
    exact ⟨by omega, Fin.ext (by omega)⟩
  · rintro ⟨h0, rfl⟩ a
    match a with
    | ⟨0, _⟩ =>
      rw [hs0, hw0]
      show _ + ((0 : ℕ) : Int) = ((v.val : ℕ) : Int)
      omega
    | ⟨1, _⟩ =>
      rw [hs1, hw1]
      show (0 : Int) + ((o'.val : ℕ) : Int) = ((o'.val : ℕ) : Int)
      omega

theorem scatterAdd_rows_apply {N E D : ℕ} (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1)
    (x : FVec Ideal ⟨2, ![N, D]⟩ .f32) (idx : IVec ⟨2, ![E, 1]⟩ 32) (upd : FVec Ideal ⟨2, ![E, D]⟩ .f32) (v : Fin N) (o : Fin D) :
    Host.scatterAdd d x idx upd (ix2 v o)
      = x (ix2 v o) + ∑ e ∈ Finset.univ.filter (fun e : Fin E => (idx (ix2 e (0 : Fin 1))).toInt = (v.val : Int)), upd (ix2 e o) := by
  unfold Host.scatterAdd
  rw [Ideal.hostScatterAdd_def]
  unfold Ideal.hostScatterAdd
  congr 1
  rw [Finset.sum_filter, sum_idx2, Finset.sum_filter]
  refine Finset.sum_congr rfl fun a _ => ?_
  simp only [resultIdx?_rows_eq_some_iff d huw hiw hsd hiv]
  by_cases hv : (idx (ix2 a (0 : Fin 1))).toInt = (v.val : Int)
  · simp only [hv, true_and, if_true]
    rw [Finset.sum_ite_eq']
    simp
  · simp only [hv, false_and, if_false]
    exact Finset.sum_const_zero

end Cert.LibRowScatter
end
-- ==== Proof.KernelValue.lean ====
/-
  The kernel program's result, index by index.

  The second region leaves max( Σ_k nf(v,k)·wv(k,o) + agg(v,o) + b2(0,o), 0 ) at (v, o).  Here wv(k,o) = W(o,k) (the
  first weight slice, transposed), b2(0,o) = b(o) (the bias as one row), and agg(v,o) is the scatter-add into zeros of
  the projected messages: 0 + Σ over the edges e whose destination word is v of
  Σ_k hs(e,k)·W(o,64+k) + Σ_k ef(e,k)·W(o,128+k), since the other two transposed slices read W at columns 64 + k and
  128 + k.  That is the kernel form of the specification.
-/
import proofs.«162274_j82549271429644_1_alg».proof.Proof.HostRead
import proofs.«162274_j82549271429644_1_alg».proof.Proof.NodeValue
import proofs.«162274_j82549271429644_1_alg».proof.Proof.Spec
import proofs.«162274_j82549271429644_1_alg».proof.Proof.LibRowScatter

set_option maxRecDepth 16384

noncomputable section

open scoped BigOperators

namespace Cert.KernelIdeal.KernelValue

open Cert.KernelIdeal Cert.KernelIdeal.Gen Cert.KernelIdeal.HostRead
open Idealize.ShloMosaic Idealize.ShloMosaic.TcCoe Idealize.ShloMosaic.ValueIdx Idealize.SL.Sem

/-- The transposed first slice of the weight at (k, o) is the weight at (o, k). -/
theorem wv_apply (W : S64x160.Idx → EReal) (k o : Fin 64) :
    transpose S64x64 [1, 0] (extractStridedSlice S64x64 ![0, 0] W slices_S64x160_S64x64_0_0) transposes_S64x64_S64x64_1_0 (ix2 k o)
      = W (ix2 o (Cert.Spec.wi0 k)) := by
  refine (transpose_apply [1, 0] _ transposes_S64x64_S64x64_1_0 (ix2 k o) (ix2 o k) (fun b => match b with
    | ⟨0, _⟩ => rfl
    | ⟨1, _⟩ => rfl)).trans ?_
  exact extractStridedSlice_apply ![0, 0] W slices_S64x160_S64x64_0_0 (ix2 o k) (ix2 o (Cert.Spec.wi0 k)) (fun a => match a with
    | ⟨0, _⟩ => by show o.val = 0 + o.val; omega
    | ⟨1, _⟩ => by show k.val = 0 + k.val; omega)

/-- The transposed second slice of the weight at (k, o) is the weight at (o, 64 + k). -/
theorem wn_apply (W : S64x160.Idx → EReal) (k o : Fin 64) :
    transpose S64x64 [1, 0] (extractStridedSlice S64x64 ![0, 64] W slices_S64x160_S64x64_0_64) transposes_S64x64_S64x64_1_0 (ix2 k o)
      = W (ix2 o (Cert.Spec.wi1 k)) := by
  refine (transpose_apply [1, 0] _ transposes_S64x64_S64x64_1_0 (ix2 k o) (ix2 o k) (fun b => match b with
    | ⟨0, _⟩ => rfl
    | ⟨1, _⟩ => rfl)).trans ?_
  exact extractStridedSlice_apply ![0, 64] W slices_S64x160_S64x64_0_64 (ix2 o k) (ix2 o (Cert.Spec.wi1 k)) (fun a => match a with
    | ⟨0, _⟩ => by show o.val = 0 + o.val; omega
    | ⟨1, _⟩ => by show 64 + k.val = 64 + k.val; rfl)

/-- The transposed third slice of the weight at (k, o) is the weight at (o, 128 + k). -/
theorem we_apply (W : S64x160.Idx → EReal) (k : Fin 32) (o : Fin 64) :
    transpose S32x64 [1, 0] (extractStridedSlice S64x32 ![0, 128] W slices_S64x160_S64x32_0_128) transposes_S64x32_S32x64_1_0 (ix2 k o)
      = W (ix2 o (Cert.Spec.wi2 k)) := by
  refine (transpose_apply [1, 0] _ transposes_S64x32_S32x64_1_0 (ix2 k o) (ix2 o k) (fun b => match b with
    | ⟨0, _⟩ => rfl
    | ⟨1, _⟩ => rfl)).trans ?_
  exact extractStridedSlice_apply ![0, 128] W slices_S64x160_S64x32_0_128 (ix2 o k) (ix2 o (Cert.Spec.wi2 k)) (fun a => match a with
    | ⟨0, _⟩ => by show o.val = 0 + o.val; omega
    | ⟨1, _⟩ => by show 128 + k.val = 128 + k.val; rfl)

/-- The bias as one row, at (0, o), is the bias at o. -/
theorem b2_apply (b : S64.Idx → EReal) (o : Fin 64) :
    shapeCast S1x64 b shapeCasts_S64_S1x64 (ix2 (0 : Fin 1) o) = b (ix1 o) := by
  refine shapeCast_apply b shapeCasts_S64_S1x64 (ix2 (0 : Fin 1) o) (ix1 o) ?_
  rw [Shape.rowMajor_val_two, Shape.rowMajor_val_one]
  show o.val = 0 * 64 + o.val
  omega

variable (m : (ℓ : Loc nD τ sig) → Buf (Elt Ideal) ℓ) (ρ : Dev nD → PrngReg)

/-- The four float arguments as launched, each at its literal type. -/
abbrev nfA (c : Dev nD) : S50000x64.Idx → EReal := m ((c : Thread nD τ).loc main_arg0)
abbrev efA (c : Dev nD) : S800000x32.Idx → EReal := m ((c : Thread nD τ).loc main_arg1)
abbrev wA (c : Dev nD) : S64x160.Idx → EReal := m ((c : Thread nD τ).loc main_arg4)
abbrev bA (c : Dev nD) : S64.Idx → EReal := m ((c : Thread nD τ).loc main_arg5)

/-- The aggregated projected messages at (v, o). -/
theorem agg_apply (c : Dev nD) (v : Fin 50000) (o : Fin 64) :
    (V3 m ρ c main_v16 : S50000x64.Idx → EReal) (ix2 v o)
      = 0 + ∑ e ∈ Cert.Spec.into (dstCol m c) v,
          ((∑ k : Fin 64, hsrc m c (ix2 e k) * wA m c (ix2 o (Cert.Spec.wi1 k)))
            + ∑ k : Fin 32, efA m c (ix2 e k) * wA m c (ix2 o (Cert.Spec.wi2 k))) := by
  rw [V3_v16, W2_arg3, W2_v13, V1_v6, V1_arg1, V1_v11, V1_v12]
  refine (Cert.LibRowScatter.scatterAdd_rows_apply scatter_S50000x64_S800000x1_S800000x64_1_0_0_1 rfl rfl rfl rfl _ _ _ v o).trans ?_
  refine congrArg₂ (· + ·) ?_ ?_
  · show Ideal.ofBits .f32 0x00000000#32 = 0
    exact Ideal.ofBits_zero_f32
  · refine Finset.sum_congr rfl fun e _ => ?_
    show Cert.KernelIdeal.EdgeValue.pm _ _ _ _ e o = _
    unfold Cert.KernelIdeal.EdgeValue.pm
    refine congrArg₂ (· + ·) ?_ ?_
    · exact Finset.sum_congr rfl fun k _ => by rw [wn_apply]
    · exact Finset.sum_congr rfl fun k _ => by rw [we_apply]

/-- The kernel program's result at node v, output feature o, is the kernel form of the specification. -/
theorem kernel_apply (c : Dev nD) (v : Fin 50000) (o : Fin 64) :
    (W4 m ρ c (Proc.devRef .tc main_v18) : S50000x64.Idx → EReal) (ix2 v o)
      = Cert.Spec.kform (nfA m c) (hsrc m c) (efA m c) (dstCol m c) (wA m c) (bA m c) v o := by
  have hfin : (W4 m ρ c (Proc.devRef .tc main_v18) : S50000x64.Idx → EReal)
      = Cert.KernelIdeal.NodeValue.nodeArr (V3 m ρ c main_arg0) (V3 m ρ c main_v16) (V3 m ρ c main_v10) (V3 m ρ c main_v17) :=
    (W4_arr m ρ c 4).trans (Cert.KernelIdeal.NodeValue.final (V3 m ρ) c)
  rw [hfin]
  show Cert.KernelIdeal.NodeValue.nodeOut (V3 m ρ c main_arg0) (V3 m ρ c main_v16) (V3 m ρ c main_v10) (V3 m ρ c main_v17) v o = _
  unfold Cert.KernelIdeal.NodeValue.nodeOut Cert.Spec.kform
  rw [agg_apply m ρ c v o, V3_arg0, V3_v10, V3_v17, W2_arg5, b2_apply]
  refine congrArg₂ max (congrArg₂ (· + ·) (congrArg₂ (· + ·) ?_ rfl) rfl) rfl
  exact Finset.sum_congr rfl fun k _ => by rw [wv_apply]

end Cert.KernelIdeal.KernelValue

end
-- ==== Proof.RefValue.lean ====
/-
  The reference's result, index by index.

  At (v, o) it is max( Σ_{k<160} cat(v,k)·W(o,k) + b(o), 0 ), cat the node's own 64 features followed by the 96
  aggregated message features.  Cutting the sum at 64 and at 128 reads the three column ranges of the weight
  separately; the aggregated features are the scatter-add into zeros of the messages (the gathered source rows
  followed by the edge features) at the destination words, so each is 0 plus a sum over the edges into v.  That is the
  reference form of the specification.
-/
import proofs.«162274_j82549271429644_1_alg».proof.Proof.Gen.ReferenceIdeal.Read
import proofs.«162274_j82549271429644_1_alg».proof.Proof.Spec
import proofs.«162274_j82549271429644_1_alg».proof.Proof.LibRowScatter
import Idealize.ShloMosaic.Lib.ValueIdx
import Idealize.ShloMosaic.Lib.Pipeline.Value
import Idealize.ShloMosaic.PureOps.Ideal.Laws
import Mathlib.Algebra.BigOperators.Fin

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

section Pieces

variable (x0 : (⟨S50000x64, .f32⟩ : BufTy).Contents (Elt Ideal)) (x1 : (⟨S800000x32, .f32⟩ : BufTy).Contents (Elt Ideal))
  (x2 x3 : (⟨S800000, .i32⟩ : BufTy).Contents (Elt Ideal)) (x4 : (⟨S64x160, .f32⟩ : BufTy).Contents (Elt Ideal))
  (x5 : (⟨S64, .f32⟩ : BufTy).Contents (Elt Ideal))

/-- A sum over 160 = 64 + 64 + 32 positions, cut at 64 and at 128. -/
theorem sum_160 (f : Fin 160 → EReal) :
    ∑ k : Fin 160, f k
      = (∑ k : Fin 64, f ⟨k.val, by omega⟩)
        + ((∑ k : Fin 64, f ⟨64 + k.val, by omega⟩) + ∑ k : Fin 32, f ⟨128 + k.val, by omega⟩) := by
  have h : ∑ k : Fin (64 + (64 + 32)), f k
      = (∑ k : Fin 64, f (Fin.castAdd (64 + 32) k))
        + ((∑ k : Fin 64, f (Fin.natAdd 64 (Fin.castAdd 32 k))) + ∑ k : Fin 32, f (Fin.natAdd 64 (Fin.natAdd 64 k))) := by
    rw [Fin.sum_univ_add, Fin.sum_univ_add]
  refine h.trans ?_
  refine congrArg₂ (· + ·) rfl (congrArg₂ (· + ·) rfl (Finset.sum_congr rfl fun k _ => congrArg f (Fin.ext ?_)))
  show 64 + (64 + k.val) = 128 + k.val
  omega

/-- The relu's zero: the broadcast of the f32 pattern 0 is 0 at every index. -/
theorem relu_zero (i : S50000x64.Idx) : val_main_call0_v0 (F := Ideal) i = (0 : EReal) := by
  rw [val_main_call0_v0_apply, val_main_call0_cst_apply]
  exact Ideal.ofBits_zero_f32

/-- The scatter's operand: the broadcast of the f32 pattern 0 is 0 at every index. -/
theorem acc_zero (i : S50000x96.Idx) : val_main_v8 (F := Ideal) i = (0 : EReal) := by
  rw [val_main_v8_apply, val_main_cst_apply]
  exact Ideal.ofBits_zero_f32

/-- The bias broadcast over the nodes, at (v, o), is the bias at o. -/
theorem bias_read (v : Fin 50000) (o : Fin 64) : val_main_v15 (F := Ideal) x5 (ix2 v o) = x5 (ix1 o) := by
  rw [val_main_v15_apply, val_main_v14_apply]
  refine congrArg x5 (funext fun a => ?_)
  match a with
  | ⟨0, _⟩ => rfl

/-- The transposed weight at (k, o) is the weight at (o, k). -/
theorem weight_read (o : Fin 64) (k : Fin 160) : val_main_v12 (F := Ideal) x4 (ix2 k o) = x4 (ix2 o k) := by
  rw [val_main_v12_apply]
  refine congrArg x4 (funext fun a => ?_)
  match a with
  | ⟨0, _⟩ => rfl
  | ⟨1, _⟩ => rfl

/-- The dot's left index at output (v, o), position k, is (v, k). -/
theorem lidx_eq (v : Fin 50000) (o : Fin 64) (k : Fin 160) : lidx_main_v13 (ix2 v o) k = ix2 v k :=
  funext fun a => match a with
    | ⟨0, _⟩ => rfl
    | ⟨1, _⟩ => rfl

/-- The dot's right index at output (v, o), position k, is (k, o). -/
theorem ridx_eq (v : Fin 50000) (o : Fin 64) (k : Fin 160) : ridx_main_v13 (ix2 v o) k = ix2 k o :=
  funext fun a => match a with
    | ⟨0, _⟩ => rfl
    | ⟨1, _⟩ => rfl

/-- Columns below 64 of the edge messages [gathered source rows | edge features] are the gathered source rows. -/
theorem msg_left (e : Fin 800000) (k : Fin 96) (k' : Fin 64) (hk : k.val = k'.val) :
    val_main_v7 (F := Ideal) x0 x1 x2 (ix2 e k) = val_main_v6 (F := Ideal) x0 x2 (ix2 e k') := by
  unfold val_main_v7
  exact concatenate_pair_apply_left (t := S800000x96) (s₁ := S800000x64) (s₂ := S800000x32) 1 _ _ _ (ix2 e k) rfl (ix2 e k') (fun b => match b with
    | ⟨0, _⟩ => rfl
    | ⟨1, _⟩ => hk.symm)

/-- Columns 64 and up of the edge messages are the edge features. -/
theorem msg_right (e : Fin 800000) (k : Fin 96) (k' : Fin 32) (hk : k.val = 64 + k'.val) :
    val_main_v7 (F := Ideal) x0 x1 x2 (ix2 e k) = x1 (ix2 e k') := by
  unfold val_main_v7
  exact concatenate_pair_apply_right (t := S800000x96) (s₁ := S800000x64) (s₂ := S800000x32) 1 _ _ _ (ix2 e k) rfl rfl (ix2 e k')
    (fun b hb => match b, hb with
      | ⟨0, _⟩, _ => rfl
      | ⟨1, _⟩, hb => absurd rfl hb)
    (by show k'.val + 64 = k.val; omega)

/-- Columns below 64 of the dot's left operand [node features | aggregated messages] are the node features. -/
theorem cat_left (v : Fin 50000) (k : Fin 160) (k' : Fin 64) (hk : k.val = k'.val) :
    val_main_v11 (F := Ideal) x0 x1 x2 x3 (ix2 v k) = x0 (ix2 v k') := by
  unfold val_main_v11
  exact concatenate_pair_apply_left (t := S50000x160) (s₁ := S50000x64) (s₂ := S50000x96) 1 _ _ _ (ix2 v k) rfl (ix2 v k') (fun b => match b with
    | ⟨0, _⟩ => rfl
    | ⟨1, _⟩ => hk.symm)

/-- Columns 64 and up of the dot's left operand are the aggregated messages. -/
theorem cat_right (v : Fin 50000) (k : Fin 160) (k' : Fin 96) (hk : k.val = 64 + k'.val) :
    val_main_v11 (F := Ideal) x0 x1 x2 x3 (ix2 v k) = val_main_v10 (F := Ideal) x0 x1 x2 x3 (ix2 v k') := by
  unfold val_main_v11
  exact concatenate_pair_apply_right (t := S50000x160) (s₁ := S50000x64) (s₂ := S50000x96) 1 _ _ _ (ix2 v k) rfl rfl (ix2 v k')
    (fun b hb => match b, hb with
      | ⟨0, _⟩, _ => rfl
      | ⟨1, _⟩, hb => absurd rfl hb)
    (by show k'.val + 64 = k.val; omega)

/-- The aggregated messages at (v, k): zero plus the sum of the messages' column k over the edges into v. -/
theorem agg_read (v : Fin 50000) (k : Fin 96) :
    val_main_v10 (F := Ideal) x0 x1 x2 x3 (ix2 v k)
      = 0 + ∑ e ∈ Cert.Spec.into (val_main_v9 (F := Ideal) x3) v, val_main_v7 (F := Ideal) x0 x1 x2 (ix2 e k) := by
  unfold val_main_v10
  refine (Cert.LibRowScatter.scatterAdd_rows_apply scatter_S50000x96_S800000x1_S800000x96_1_0_0_1 rfl rfl rfl rfl _ _ _ v k).trans ?_
  rw [acc_zero]
  rfl

/-- The dot at (v, o), its 160 positions cut into the node's own 64, the 64 aggregated source columns and the 32
    aggregated edge-feature columns. -/
theorem dot_read (v : Fin 50000) (o : Fin 64) :
    val_main_v13 (F := Ideal) x0 x1 x2 x3 x4 (ix2 v o)
      = (∑ k : Fin 64, x0 (ix2 v k) * x4 (ix2 o (Cert.Spec.wi0 k)))
        + ((∑ k : Fin 64, (0 + ∑ e ∈ Cert.Spec.into (val_main_v9 (F := Ideal) x3) v, val_main_v6 (F := Ideal) x0 x2 (ix2 e k))
              * x4 (ix2 o (Cert.Spec.wi1 k)))
            + ∑ k : Fin 32, (0 + ∑ e ∈ Cert.Spec.into (val_main_v9 (F := Ideal) x3) v, x1 (ix2 e k))
              * x4 (ix2 o (Cert.Spec.wi2 k))) := by
  rw [val_main_v13_apply]
  refine (Finset.sum_congr rfl fun k _ => by rw [lidx_eq, ridx_eq, weight_read]).trans ?_
  refine (sum_160 fun k => val_main_v11 (F := Ideal) x0 x1 x2 x3 (ix2 v k) * x4 (ix2 o k)).trans ?_
  refine congrArg₂ (· + ·) (Finset.sum_congr rfl fun k _ => ?_)
    (congrArg₂ (· + ·) (Finset.sum_congr rfl fun k _ => ?_) (Finset.sum_congr rfl fun k _ => ?_))
  · exact congrArg₂ (· * ·) (cat_left x0 x1 x2 x3 v _ k rfl) rfl
  · refine congrArg₂ (· * ·) ?_ rfl
    refine (cat_right x0 x1 x2 x3 v _ ⟨k.val, by omega⟩ rfl).trans ?_
    refine (agg_read x0 x1 x2 x3 v _).trans ?_
    exact congrArg (0 + ·) (Finset.sum_congr rfl fun e _ => msg_left x0 x1 x2 e _ k rfl)
  · refine congrArg₂ (· * ·) ?_ rfl
    refine (cat_right x0 x1 x2 x3 v _ ⟨64 + k.val, by omega⟩ (by show 128 + k.val = 64 + (64 + k.val); omega)).trans ?_
    refine (agg_read x0 x1 x2 x3 v _).trans ?_
    exact congrArg (0 + ·) (Finset.sum_congr rfl fun e _ => msg_right x0 x1 x2 e _ k rfl)

end Pieces

/-- The reference's result at node v, output feature o, is the reference form of the specification, over the gathered
    source rows and the destination words as the reference's own host operations produce them. -/
theorem ref_apply (x0 : (⟨S50000x64, .f32⟩ : BufTy).Contents (Elt Ideal)) (x1 : (⟨S800000x32, .f32⟩ : BufTy).Contents (Elt Ideal))
    (x2 x3 : (⟨S800000, .i32⟩ : BufTy).Contents (Elt Ideal)) (x4 : (⟨S64x160, .f32⟩ : BufTy).Contents (Elt Ideal))
    (x5 : (⟨S64, .f32⟩ : BufTy).Contents (Elt Ideal)) (v : Fin 50000) (o : Fin 64) :
    val_main_v17 (F := Ideal) x0 x1 x2 x3 x4 x5 (ix2 v o)
      = Cert.Spec.rform x0 (val_main_v6 (F := Ideal) x0 x2) x1 (val_main_v9 (F := Ideal) x3) x4 x5 v o := by
  rw [val_main_v17_apply, val_main_v16_apply, relu_zero, bias_read, dot_read]
  rfl

end Cert.ReferenceIdeal.RefValue

end
-- ==== Proof.Finite.lean ====
/-
  The precondition read back: it is the conjunction, over the four float inputs, of "every entry's absolute value is
  below +∞".  An extended real whose absolute value is below +∞ is a real number, so under the precondition every
  entry of the node features, the edge features, the weight and the bias is real.
-/
import proofs.«162274_j82549271429644_1_alg».proof.Pre_finite_inputs
import proofs.«162274_j82549271429644_1_alg».proof.Proof.Gen.Pre_finite_inputs
import Idealize.ShloMosaic.PureOps.Ideal
import Idealize.ShloMosaic.Lib.ValueIdx
import Idealize.ShloMosaic.Lib.ReduceAll

noncomputable section
namespace Cert.FiniteInputs
open Idealize.ShloMosaic Cert.Pre_finite_inputs

/-- The rank-0 shape has exactly one index: there is no axis to give a coordinate on. -/
instance subsingleton_idx_rank0 : Subsingleton S_.Idx := ⟨fun a b => funext fun d => d.elim0⟩

/-- An extended real whose absolute value `max x (-x)` lies strictly below `+∞` is a real number:
    at `⊥` and at `⊤` the absolute value is `⊤`, which is not below itself. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern `0x7F800000` (sign 0, exponent all ones, fraction 0) denotes `+∞`. -/
theorem inf_bits : Ideal.ofBits .f32 0x7F800000#32 = (⊤ : EReal) := by
  simp [Ideal.ofBits, Ideal.ieee]

/-- One conjunct of the precondition read back: if `all (|a| < +∞)`, stated as the reduction by `and` over every
    axis of the elementwise comparison of `|a|` with the broadcast constant `+∞`, is 1, then every entry of `a`
    is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant S_ .f32 0x7F800000#32))) init hr hu j = 1#1)
    (i : s.Idx) : ∃ r : ℝ, a i = (r : EReal) := by
  -- the reduction by `and` came out 1, so the comparison is 1 at the index `i`
  have h1 := Host.reduce_andi_all _ init hr hu j e i
  -- the comparison at `i` is the order's: `|a i| < +∞`
  have h2 : max (a i) (-(a i)) < (⊤ : EReal) := by
    have h3 : Ideal.cmp .olt (max (a i) (-(a i))) (Ideal.ofBits .f32 0x7F800000#32) = 1#1 := h1
    rw [inf_bits] at h3
    by_contra hn
    simp [Ideal.cmp, hn] at h3
  exact real_of_abs_lt_top _ h2

theorem real_of_pre [Cert.Pre_finite_inputs.Facts]
    (a0 : FVec Ideal S50000x64 .f32) (a1 : FVec Ideal S800000x32 .f32) (a2 a3 : IVec S800000 32)
    (a4 : FVec Ideal S64x160 .f32) (a5 : FVec Ideal S64 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal))
      ∧ (∀ i, ∃ r : ℝ, a4 i = (r : EReal)) ∧ (∀ i, ∃ r : ℝ, a5 i = (r : EReal)) := by
  -- the predicate's one word, at the one index of the rank-0 result
  have h0 := congrFun h ValueIdx.ix0
  dsimp only [Cert.Pre_finite_inputs.fn, Cert.Pre_finite_inputs.fn_part1] at h0
  -- the word is the `and` of four: ((c0 ∧ c1) ∧ c4) ∧ c5
  obtain ⟨h013, h5⟩ := IntOp.andi_eq_one.1 h0
  obtain ⟨h01, h4⟩ := IntOp.andi_eq_one.1 h013
  obtain ⟨h0', h1⟩ := IntOp.andi_eq_one.1 h01
  exact ⟨real_of_all a0 _ _ _ _ _ h0', real_of_all a1 _ _ _ _ _ h1,
    real_of_all a4 _ _ _ _ _ h4, real_of_all a5 _ _ _ _ _ h5⟩

end Cert.FiniteInputs
end
-- ==== Proof.lean ====
/-
  One message-passing layer: every node v gets
      relu( W · concat( nf(v), Σ_{e : dst(e) = v} concat( nf(src(e)), ef(e) ) ) + b ).

  The reference sums the 96-wide messages into their destination rows and then multiplies the 160-wide concatenation
  by the transposed weight.  The kernel program splits the weight into three column slices, multiplies every edge's
  message by its two slices first (one kernel region, a hundred blocks of 8000 edges), sums the 64-wide products into
  their destination rows, and adds the node's own product and the bias in a second region (ten blocks of 5000 nodes).
  Both gather the source rows with the same host operations and address the destination rows with the same words, so
  the two results differ only in where the sum over the edges stands: inside the product with the weight, or outside
  it.  On the extended reals a product distributes over a finite sum when every entry is a real number, which the
  precondition says of the four float inputs; the gathered rows are entries of the node features, so they are real
  too.

  The frames of the two kernel programs are the generated ones; the reference's is its generated run with the result
  dropped.  The idealization rewrote nothing, so there is nothing to preserve.
-/
import proofs.«162274_j82549271429644_1_alg».proof.Defs
import proofs.«162274_j82549271429644_1_alg».proof.Proof.Gen.Kernel
import proofs.«162274_j82549271429644_1_alg».proof.Proof.Gen.Kernel.Skeleton
import proofs.«162274_j82549271429644_1_alg».proof.Proof.Gen.Kernel.Launch
import proofs.«162274_j82549271429644_1_alg».proof.Proof.Gen.Kernel.Points
import proofs.«162274_j82549271429644_1_alg».proof.Proof.Gen.Kernel.Frame
import proofs.«162274_j82549271429644_1_alg».proof.Proof.Gen.KernelIdeal
import proofs.«162274_j82549271429644_1_alg».proof.Proof.Gen.KernelIdeal.Skeleton
import proofs.«162274_j82549271429644_1_alg».proof.Proof.Gen.KernelIdeal.Launch
import proofs.«162274_j82549271429644_1_alg».proof.Proof.Gen.KernelIdeal.Points
import proofs.«162274_j82549271429644_1_alg».proof.Proof.Gen.KernelIdeal.Frame
import proofs.«162274_j82549271429644_1_alg».proof.Proof.Gen.ReferenceIdeal
import proofs.«162274_j82549271429644_1_alg».proof.Proof.Gen.ReferenceIdeal.Run
import proofs.«162274_j82549271429644_1_alg».proof.Proof.Gen.ReferenceIdeal.Read
import proofs.«162274_j82549271429644_1_alg».proof.Proof.Gen.Pre_finite_inputs
import proofs.«162274_j82549271429644_1_alg».proof.Proof.KernelRun
import proofs.«162274_j82549271429644_1_alg».proof.Proof.KernelValue
import proofs.«162274_j82549271429644_1_alg».proof.Proof.RefValue
import proofs.«162274_j82549271429644_1_alg».proof.Proof.Finite
import proofs.«162274_j82549271429644_1_alg».proof.Proof.Spec
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments the two programs end with one array: the kernel program's result is the
    kernel form of the specification, the reference's the reference form, over the same gathered rows and destination
    words, and on real entries the two forms agree. -/
theorem algebraic : Cert.algebraic_KernelIdeal_ReferenceIdeal := by
  intro m ρ m' ρ' hpre hagree
  refine ⟨fun c => Cert.KernelIdeal.Gen.W4 m ρ c (Proc.devRef .tc Cert.KernelIdeal.main_v18),
    Cert.KernelIdeal.ResultRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Read.val_main_v17_eq]
  obtain ⟨h0, h1, h4, h5⟩ := Cert.FiniteInputs.real_of_pre _ _ _ _ _ _ (hpre c)
  funext i
  obtain ⟨v, o, rfl⟩ : ∃ (v : Fin 50000) (o : Fin 64), i = ix2 v o := ⟨i 0, i 1, eq_ix2 i⟩
  refine (Cert.ReferenceIdeal.RefValue.ref_apply _ _ _ _ _ _ v o).trans ?_
  refine Eq.trans ?_ (Cert.KernelIdeal.KernelValue.kernel_apply m ρ c v o).symm
  exact Cert.Spec.rform_eq_kform _ _ _ _ _ _ (fun j => h0 _) h1 h4 v o

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
